-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S6144x2048 : Shape := ⟨2, ![6144, 2048]⟩
abbrev S6144 : Shape := ⟨1, ![6144]⟩
abbrev S8x2048 : Shape := ⟨2, ![8, 2048]⟩
abbrev S2048x8 : Shape := ⟨2, ![2048, 8]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S8x2048 : S_.BroadcastsInDim S8x2048 (![] : Fin 0 → Fin S8x2048.rank)
  reducesTo_S8x2048_S_d0_1 : S8x2048.ReducesTo [0, 1] S_
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg4 : FVec F S2048x8 .f32) (main_arg5 : FVec F S8x2048 .f32) (main_arg6 : FVec F S2048x8 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S2048x8 .f32 := Host.absf main_arg4
  let main_cst_6 : FVec F S_ .f32 := constant S_ .f32 0x7F800000#32
  let main_v20 : FVec F S2048x8 .f32 := broadcastInDim S2048x8 ![] bcast_S_S2048x8 main_cst_6
  let main_v21 : IVec S2048x8 1 := cmpf .olt main_v19 main_v20
  let main_c_7 : IVec S_ 1 := constantI S_ 1 1#1
  let main_v22 : IVec S_ 1 := (fun x v => Host.reduce IntOp.andi x v reducesTo_S2048x8_S_d0_1 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  let main_v29 : FVec F S2048x8 .f32 := Host.absf main_arg6
  let main_cst_10 : FVec F S_ .f32 := constant S_ .f32 0x7F800000#32
  let main_v30 : FVec F S2048x8 .f32 := broadcastInDim S2048x8 ![] bcast_S_S2048x8 main_cst_10
  let main_v31 : IVec S2048x8 1 := cmpf .olt main_v29 main_v30
  let main_c_11 : IVec S_ 1 := constantI S_ 1 1#1
  let main_v32 : IVec S_ 1 := (fun x v => Host.reduce IntOp.andi x v reducesTo_S2048x8_S_d0_1 h_S_) main_v31 main_c_11
  let main_v33 : IVec S_ 1 := andi main_v28 main_v32
  main_v33

def fn {F : FTy → Type} [FloatOps F] (main_arg0 : FVec F S4x2048x2048 .f32) (main_arg1 : FVec F S6144x2048 .f32) (main_arg2 : FVec F S6144 .f32) (main_arg3 : FVec F S8x2048 .f32) (main_arg4 : FVec F S2048x8 .f32) (main_arg5 : FVec F S8x2048 .f32) (main_arg6 : FVec F S2048x8 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_arg6 main_v13 main_v16
-- ==== Kernel.lean ====
abbrev S4x2048x2048 : Shape := ⟨3, ![4, 2048, 2048]⟩
abbrev S6144x2048 : Shape := ⟨2, ![6144, 2048]⟩
abbrev S6144 : Shape := ⟨1, ![6144]⟩
abbrev S8x2048 : Shape := ⟨2, ![8, 2048]⟩
abbrev S2048x8 : Shape := ⟨2, ![2048, 8]⟩
abbrev S2048x2048 : Shape := ⟨2, ![2048, 2048]⟩
abbrev S_ : Shape := ⟨0, ![]⟩
abbrev S4096x2048 : Shape := ⟨2, ![4096, 2048]⟩
abbrev S8192x2048 : Shape := ⟨2, ![8192, 2048]⟩
abbrev S1x6144 : Shape := ⟨2, ![1, 6144]⟩
abbrev S8192x6144 : Shape := ⟨2, ![8192, 6144]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩
abbrev S4x2048x6144 : Shape := ⟨3, ![4, 2048, 6144]⟩

abbrev nBuf : Space → Nat
  | .hbm => 24
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S6144x2048, .f32⟩
  | .hbm, ⟨2, _⟩ => ⟨S6144, .f32⟩
  | .hbm, ⟨3, _⟩ => ⟨S8x2048, .f32⟩
  | .hbm, ⟨4, _⟩ => ⟨S2048x8, .f32⟩
  | .hbm, ⟨5, _⟩ => ⟨S8x2048, .f32⟩
  | .hbm, ⟨6, _⟩ => ⟨S2048x8, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S4096x2048, .f32⟩
  | .hbm, ⟨16, _⟩ => ⟨S_, .f32⟩
  | .hbm, ⟨17, _⟩ => ⟨S2048x2048, .f32⟩
  | .hbm, ⟨18, _⟩ => ⟨S6144x2048, .f32⟩
  | .hbm, ⟨19, _⟩ => ⟨S6144x2048, .f32⟩
  | .hbm, ⟨20, _⟩ => ⟨S8192x2048, .f32⟩
  | .hbm, ⟨21, _⟩ => ⟨S1x6144, .f32⟩
  | .hbm, ⟨22, _⟩ => ⟨S8192x6144, .f32⟩
  | .hbm, ⟨23, _⟩ => ⟨S4x2048x6144, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S2048x2048 : S_.BroadcastsInDim S2048x2048 (![] : Fin 0 → Fin S2048x2048.rank)
  concatenates_S2048x2048_S2048x2048_S4096x2048_d0 : Shape.Concatenates [S2048x2048, S2048x2048] S4096x2048 0
  concatenates_S2048x2048_S4096x2048_S6144x2048_d0 : Shape.Concatenates [S2048x2048, S4096x2048] S6144x2048 0
  shapeCasts_S4x2048x2048_S8192x2048 : S4x2048x2048.ShapeCasts S8192x2048
  shapeCasts_S6144_S1x6144 : S6144.ShapeCasts S1x6144
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x6144_S4x2048x6144 : S8192x6144.ShapeCasts S4x2048x6144
  dot_S2048x8_S8x2048_S2048x2048_1_0_0_1_n_n_wf : DotDims.WF S2048x8 S8x2048 S2048x2048 [1] [0] [0] [1] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S6144x2048.size a
  hwx0_1 : ∀ i : grid0.Coords, EltTy.bits .f32 = 32 ∨ (Rect.block (s := S6144x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x6144.size a
  hwx0_3 : ∀ i : grid0.Coords, EltTy.bits .f32 = 32 ∨ (Rect.block (s := S8192x6144) S512x1024.size (cc0_transform_3 i) (hinb0_3 i)).WholeWords (EltTy.packing .f32)

variable [Facts₀]

def dot_S2048x8_S8x2048_S2048x2048_1_0_0_1_n_n : DotDims S2048x8 S8x2048 S2048x2048 where
  lhsContracting := [1]
  rhsContracting := [0]
  lhsNonContracting := [0]
  rhsNonContracting := [1]
  lhsBatch := []
  rhsBatch := []
  wf := dot_S2048x8_S8x2048_S2048x2048_1_0_0_1_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v10) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S6144x2048 : Shape := ⟨2, ![6144, 2048]⟩
abbrev S6144 : Shape := ⟨1, ![6144]⟩
abbrev S8x2048 : Shape := ⟨2, ![8, 2048]⟩
abbrev S2048x8 : Shape := ⟨2, ![2048, 8]⟩
abbrev S2048x2048 : Shape := ⟨2, ![2048, 2048]⟩
abbrev S_ : Shape := ⟨0, ![]⟩
abbrev S4096x2048 : Shape := ⟨2, ![4096, 2048]⟩
abbrev S4x2048x6144 : Shape := ⟨3, ![4, 2048, 6144]⟩
abbrev S1x1x6144 : Shape := ⟨3, ![1, 1, 6144]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S6144x2048, .f32⟩
  | .hbm, ⟨2, _⟩ => ⟨S6144, .f32⟩
  | .hbm, ⟨3, _⟩ => ⟨S8x2048, .f32⟩
  | .hbm, ⟨4, _⟩ => ⟨S2048x8, .f32⟩
  | .hbm, ⟨5, _⟩ => ⟨S8x2048, .f32⟩
  | .hbm, ⟨6, _⟩ => ⟨S2048x8, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S4096x2048, .f32⟩
  | .hbm, ⟨16, _⟩ => ⟨S_, .f32⟩
  | .hbm, ⟨17, _⟩ => ⟨S2048x2048, .f32⟩
  | .hbm, ⟨18, _⟩ => ⟨S6144x2048, .f32⟩
  | .hbm, ⟨19, _⟩ => ⟨S6144x2048, .f32⟩
  | .hbm, ⟨20, _⟩ => ⟨S4x2048x6144, .f32⟩
  | .hbm, ⟨21, _⟩ => ⟨S1x1x6144, .f32⟩
  | .hbm, ⟨22, _⟩ => ⟨S4x2048x6144, .f32⟩
  | .hbm, ⟨23, _⟩ => ⟨S4x2048x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  concatenates_S2048x2048_S2048x2048_S4096x2048_d0 : Shape.Concatenates [S2048x2048, S2048x2048] S4096x2048 0
  concatenates_S2048x2048_S4096x2048_S6144x2048_d0 : Shape.Concatenates [S2048x2048, S4096x2048] S6144x2048 0
  bcast_S6144_S1x1x6144_2 : S6144.BroadcastsInDim S1x1x6144 (![2] : Fin 1 → Fin S1x1x6144.rank)
  bcast_S1x1x6144_S4x2048x6144_0_1_2 : S1x1x6144.BroadcastsInDim S4x2048x6144 (![0, 1, 2] : Fin 3 → Fin S4x2048x6144.rank)
  dot_S2048x8_S8x2048_S2048x2048_1_0_0_1_n_n_wf : DotDims.WF S2048x8 S8x2048 S2048x2048 [1] [0] [0] [1] [] []
  dot_S4x2048x2048_S6144x2048_S4x2048x6144_2_1_01_0_n_n_wf : DotDims.WF S4x2048x2048 S6144x2048 S4x2048x6144 [2] [1] [0, 1] [0] [] []

variable [Facts₀]

def dot_S2048x8_S8x2048_S2048x2048_1_0_0_1_n_n : DotDims S2048x8 S8x2048 S2048x2048 where
  lhsContracting := [1]
  rhsContracting := [0]
  lhsNonContracting := [0]
  rhsNonContracting := [1]
  lhsBatch := []
  rhsBatch := []
  wf := dot_S2048x8_S8x2048_S2048x2048_1_0_0_1_n_n_wf
def dot_S4x2048x2048_S6144x2048_S4x2048x6144_2_1_01_0_n_n : DotDims S4x2048x2048 S6144x2048 S4x2048x6144 where
  lhsContracting := [2]
  rhsContracting := [1]
  lhsNonContracting := [0, 1]
  rhsNonContracting := [0]
  lhsBatch := []
  rhsBatch := []
  wf := dot_S4x2048x2048_S6144x2048_S4x2048x6144_2_1_01_0_n_n_wf

class Facts : Prop extends Facts₀ where

variable [Facts]
-- ==== Proof.Body.lean ====
/-
  The kernel body's one stored value, read at an entry.

  At a grid point the body loads a [512, 2048] block of activations, a [1024, 2048] block of weight rows and a [1, 1024]
  block of the bias, and stores their product-plus-bias block: entry (p, q) of the stored [512, 1024] block is the
  inner product over the 2048 features of activation row p with weight row q, plus the bias at column q. The matrix
  unit contracts the LAST axis of both operands (activations against weight rows, no transpose) into the zero splat,
  so at the exact values it is just that sum; the two narrowings to bf16 are the identity there, the shape casts are
  between equal shapes, and the bias row is repeated down the 512 rows.
-/
import proofs.«159400_j74534862455241_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand is read at the output's row. -/
theorem lhs_row (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
/-- The left operand's feature axis is the contracted coordinate. -/
theorem lhs_feat (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
/-- The right operand is read at the row the output's COLUMN names. -/
theorem rhs_row (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
/-- The right operand's feature axis is the contracted coordinate too. -/
theorem rhs_feat (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The matrix product into the zero splat at entry (p, q): ∑ₖ a[p, k] · b[q, k]. -/
theorem matmul_entry (a : FVec Ideal S512x2048 .bf16) (b : FVec Ideal S1024x2048 .bf16) (p : Fin 512) (q : Fin 1024) :
    matmul dot_S512x2048_S1024x2048_S512x1024_1_1_0_0_n_n none a b (constant (F := Ideal) S512x1024 .f32 0x00000000#32) (ix2 p q)
      = ∑ k : Fin 2048, a (ix2 p k) * b (ix2 q k) := by
  simp only [matmul]
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p q) ((contrEquiv1 dot_S512x2048_S1024x2048_S512x1024_1_1_0_0_n_n 2048 rfl rfl).symm k) = ix2 p k := funext fun a => Fin.ext (by
    match a with
    | ⟨0, _⟩ => exact lhs_row _ _
    | ⟨1, _⟩ => exact (lhs_feat _ _).trans hk)
  have er : dot_S512x2048_S1024x2048_S512x1024_1_1_0_0_n_n.rhsIdx (ix2 p q) ((contrEquiv1 dot_S512x2048_S1024x2048_S512x1024_1_1_0_0_n_n 2048 rfl rfl).symm k) = ix2 q k := funext fun a => Fin.ext (by
    match a with
    | ⟨0, _⟩ => exact rhs_row _ _
    | ⟨1, _⟩ => exact (rhs_feat _ _).trans hk)
  rw [el, er]

/-- The bias row repeated down the rows, at (p, q), is the bias at column q. -/
theorem bias_entry (v : FVec Ideal S1x1024 .f32) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-- THE STORED BLOCK at entry (p, q): ∑ₖ x[p, k] · w[q, k] + b[0, q] of the three loaded blocks. -/
theorem pay_entry (x : Vec Ideal S512x2048 .f32) (w : Vec Ideal S1024x2048 .f32) (b : Vec Ideal S1x1024 .f32)
    (p : Fin 512) (q : Fin 1024) :
    k0_pay1 (F := Ideal) x w b (ix2 p q) = (∑ k : Fin 2048, x (ix2 p k) * w (ix2 q k)) + b (ix2 (0 : Fin 1) q) := by
  unfold k0_pay1
  show matmul dot_S512x2048_S1024x2048_S512x1024_1_1_0_0_n_n none
        (truncf .bf16 (shapeCast S512x2048 x shapeCasts_S512x2048_S512x2048) bitsLt_bf16_f32)
        (truncf .bf16 (shapeCast S1024x2048 w shapeCasts_S1024x2048_S1024x2048) bitsLt_bf16_f32)
        (constant (F := Ideal) S512x1024 .f32 0x00000000#32) (ix2 p q)
      + broadcastTo S512x1024 (shapeCast S1x1024 b shapeCasts_S1x1024_S1x1024) broadcasts_S1x1024_S512x1024 (ix2 p q) = _
  rw [matmul_entry, bias_entry, shapeCast_self, shapeCast_self, shapeCast_self]
  rfl

end Cert.KernelIdeal.Body

end
-- ==== Proof.Linear.lean ====
/-
  The fused linear layer of this certificate as a function of three arrays, in the two arrangements the programs use.

  Over FLATTENED rows: entry (r, o) of an [8192, 6144] array is the inner product, over the 2048 features, of row r of
  the activations with row o of the weight, plus the bias at o. Over BATCH AND POSITION: entry (p, s, o) of a
  [4, 2048, 6144] array is the same inner product of the activations' row (p, s) with row o of the weight, plus the bias
  at o. Row (p, s) of the [4, 2048, 2048] activations is row 2048·p + s of their [8192, 2048] reshape, a reshape keeping
  row-major positions, so reshaping the flattened result to [4, 2048, 6144] gives the batched one: the same products
  are summed in the same order, and no law of the extended reals beyond that is used.
-/
import Idealize.ShloMosaic.PureOps.Ideal
import Idealize.ShloMosaic.Lib.ValueIdx
import Idealize.ShloMosaic.Lib.Pipeline.Value

noncomputable section

open scoped BigOperators

namespace Cert.Linear

open Idealize.ShloMosaic Idealize.ShloMosaic.ValueIdx

/-- Activations with batch and position: [4, 2048, 2048]. -/
abbrev SX3 : Shape := ⟨3, ![4, 2048, 2048]⟩
/-- Activations with the rows flattened: [8192, 2048]. -/
abbrev SX2 : Shape := ⟨2, ![8192, 2048]⟩
/-- The weight, one row per output feature: [6144, 2048]. -/
abbrev SW : Shape := ⟨2, ![6144, 2048]⟩
/-- The bias as a vector: [6144]. -/
abbrev SB1 : Shape := ⟨1, ![6144]⟩
/-- The bias as a one-row matrix: [1, 6144]. -/
abbrev SB2 : Shape := ⟨2, ![1, 6144]⟩
/-- The result with the rows flattened: [8192, 6144]. -/
abbrev SO2 : Shape := ⟨2, ![8192, 6144]⟩
/-- The result with batch and position: [4, 2048, 6144]. -/
abbrev SO3 : Shape := ⟨3, ![4, 2048, 6144]⟩

/-- The layer over flattened rows: entry (r, o) is ∑ₖ x[r, k] · w[o, k] + b[0, o]. -/
def rows (x : SX2.Idx → EReal) (w : SW.Idx → EReal) (b : SB2.Idx → EReal) : SO2.Idx → EReal :=
  fun i => (∑ k : Fin 2048, x (ix2 (i 0) k) * w (ix2 (i 1) k)) + b (ix2 (0 : Fin 1) (i 1))

/-- The layer over batch and position: entry (p, s, o) is ∑ₖ x[p, s, k] · w[o, k] + b[o]. -/
def batched (x : SX3.Idx → EReal) (w : SW.Idx → EReal) (b : SB1.Idx → EReal) : SO3.Idx → EReal :=
  fun i => (∑ k : Fin 2048, x (ix3 (i 0) (i 1) k) * w (ix2 (i 2) k)) + b (ix1 (i 2))

/-- Row 2048·p + s of the flattened activations is row (p, s) of the batched ones: the two entries have the same
    row-major position (2048·p + s)·2048 + k. -/
theorem flat_x (x : SX3.Idx → EReal) (h : SX3.ShapeCasts SX2) (p : Fin 4) (s : Fin 2048) (r : Fin 8192)
    (hr : r.val = p.val * 2048 + s.val) (k : Fin 2048) :
    shapeCast SX2 x h (ix2 r k) = x (ix3 p s k) :=
  shapeCast_apply x h _ _ (by
    rw [Shape.rowMajor_val_three, Shape.rowMajor_val_two]
    show (p.val * 2048 + s.val) * 2048 + k.val = r.val * 2048 + k.val
    rw [hr])

/-- The one-row bias at column o is the bias vector at o. -/
theorem flat_b (b : SB1.Idx → EReal) (h : SB1.ShapeCasts SB2) (o : Fin 6144) :
    shapeCast SB2 b h (ix2 (0 : Fin 1) o) = b (ix1 o) :=
  shapeCast_apply b h _ _ (by
    rw [Shape.rowMajor_val_one, Shape.rowMajor_val_two]
    show o.val = 0 * 6144 + o.val
    rw [Nat.zero_mul, Nat.zero_add])

/-- THE BRIDGE: the flattened layer of the flattened activations and the one-row bias, reshaped to batch and position,
    is the batched layer. At (p, s, o) the reshape reads the flattened result at row 2048·p + s, whose summands are
    those of the batched entry one by one. -/
theorem reshape_rows (x : SX3.Idx → EReal) (w : SW.Idx → EReal) (b : SB1.Idx → EReal)
    (hx : SX3.ShapeCasts SX2) (hb : SB1.ShapeCasts SB2) (ho : SO2.ShapeCasts SO3) :
    shapeCast SO3 (rows (shapeCast SX2 x hx) w (shapeCast SB2 b hb)) ho = batched x w b := by
  funext i
  obtain ⟨p, s, o, rfl⟩ : ∃ (p : Fin 4) (s : Fin 2048) (o : Fin 6144), i = ix3 p s o := ⟨i 0, i 1, i 2, eq_ix3 i⟩
  have hlt : p.val * 2048 + s.val < 8192 := by have := p.isLt; have := s.isLt; omega
  rw [shapeCast_apply _ ho (ix3 p s o) (ix2 (⟨p.val * 2048 + s.val, hlt⟩ : Fin 8192) o) (by
    rw [Shape.rowMajor_val_two, Shape.rowMajor_val_three]
    rfl)]
  show (∑ k : Fin 2048, shapeCast SX2 x hx (ix2 (⟨p.val * 2048 + s.val, hlt⟩ : Fin 8192) k) * w (ix2 o k))
      + shapeCast SB2 b hb (ix2 (0 : Fin 1) o)
    = (∑ k : Fin 2048, x (ix3 p s k) * w (ix2 o k)) + b (ix1 o)
  rw [flat_b b hb o]
  exact congrArg (· + b (ix1 o)) (Finset.sum_congr rfl fun k _ => by rw [flat_x x hx p s _ rfl k])

end Cert.Linear

end
-- ==== Proof.Region.lean ====
/-
  The pallas_call's output array after the run.

  The grid is 16 × 6. At point t = (i, j) the pipeline stages rows 512·i … 512·i + 511 of the flattened activations
  (all 2048 features), rows 1024·j … 1024·j + 1023 of the effective weight (all 2048 features) and columns
  1024·j … 1024·j + 1023 of the one-row bias, and writes back block (i, j) of the [8192, 6144] result. Entry (p, q) of
  what is written back is ∑ₖ x[512·i + p, k] · w[1024·j + q, k] + b[0, 1024·j + q]: the entry of the flattened linear
  layer at the array index the block entry lands on. The 96 blocks tile the result, so after the run the whole array
  is the flattened layer of the three arrays the region found.
-/
import proofs.«159400_j74534862455241_1_alg».proof.Proof.Gen.KernelIdeal.Frame
import proofs.«159400_j74534862455241_1_alg».proof.Proof.Body
import proofs.«159400_j74534862455241_1_alg».proof.Proof.Linear
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ)

/-- The three arrays the region finds, at their literal types: the flattened activations, the effective weight, the
    one-row bias. -/
abbrev xarr (c : Dev nD) : Vec Ideal S8192x2048 .f32 := V m c main_v10
abbrev warr (c : Dev nD) : Vec Ideal S6144x2048 .f32 := V m c main_v9
abbrev barr (c : Dev nD) : Vec Ideal S1x6144 .f32 := V m c main_v11

/-- The flattened linear layer of those three arrays: what the result array ends holding. -/
abbrev full (c : Dev nD) : Vec Ideal S8192x6144 .f32 := Cert.Linear.rows (xarr m c) (warr m c) (barr m c)

theorem hz : (![0, 0] : Fin 2 → Nat) = fun _ => 0 := funext fun a => by fin_cases a <;> rfl

/-- The printed index maps over the grid: the activations' block follows the output's row block, the weight's and the
    bias's follow the output's column block, and every other block index is 0. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15
    ∧ win0_3.index t (1 : Fin 2) ≤ 5 :=
  (by decide +kernel : ∀ t : Fin grid0.N, _)

/-- Every block of the result is some point's. -/
theorem idx_onto : ∀ (q0 : Fin 16) (q1 : Fin 6), ∃ t : Fin cfg0.N, win0_3.index t = ![q0.val, q1.val] :=
  (by decide +kernel : ∀ (q0 : Fin 16) (q1 : Fin 6), ∃ t : Fin grid0.N, win0_3.index t = ![q0.val, q1.val])

/-- The activations' block at a point, at (p, k): the array at the row the block's offset gives, feature k. -/
theorem xblk_at (c : Dev nD) (t : Fin cfg0.N) (p : Fin 512) (k : Fin 2048) (r : Fin 8192)
    (hr : r.val = win0_0.index t (0 : Fin 2) * 512 + p.val) (h1 : win0_0.index t (1 : Fin 2) = 0) :
    (iblk m c 0 t : Vec Ideal S512x2048 .f32) (ix2 p k) = xarr m c (ix2 r k) := by
  unfold iblk
  show V m c main_v10 (((cfg0.win 0).blk t).view.emb (ix2 p k)) = V m c main_v10 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- The weight's block at a point, at (q, k): the array at the row the block's offset gives, feature k. -/
theorem wblk_at (c : Dev nD) (t : Fin cfg0.N) (q : Fin 1024) (k : Fin 2048) (o : Fin 6144)
    (ho : o.val = win0_1.index t (0 : Fin 2) * 1024 + q.val) (h1 : win0_1.index t (1 : Fin 2) = 0) :
    (iblk m c 1 t : Vec Ideal S1024x2048 .f32) (ix2 q k) = warr m c (ix2 o k) := by
  unfold iblk
  show V m c main_v9 (((cfg0.win 1).blk t).view.emb (ix2 q k)) = V m c main_v9 (ix2 o k)
  refine congrArg _ (funext fun a => Fin.ext ?_)
  match a with
  | ⟨0, _⟩ => show win0_1.index t (0 : Fin 2) * 1024 + 1 * q.val = o.val; omega
  | ⟨1, _⟩ => show win0_1.index t (1 : Fin 2) * 2048 + 1 * k.val = k.val; omega

/-- The bias's block at a point, at (0, q): the one-row bias at the column the block's offset gives. -/
theorem bblk_at (c : Dev nD) (t : Fin cfg0.N) (q : Fin 1024) (o : Fin 6144)
    (h0 : win0_2.index t (0 : Fin 2) = 0) (ho : o.val = win0_2.index t (1 : Fin 2) * 1024 + q.val) :
    (iblk m c 2 t : Vec Ideal S1x1024 .f32) (ix2 (0 : Fin 1) q) = barr m c (ix2 (0 : Fin 1) o) := by
  unfold iblk
  show V m c main_v11 (((cfg0.win 2).blk t).view.emb (ix2 (0 : Fin 1) q)) = V m c main_v11 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- The stored block of three loaded blocks at any entry of the block, by coordinates. -/
theorem pay_at (x : Vec Ideal S512x2048 .f32) (w : Vec Ideal S1024x2048 .f32) (b : Vec Ideal S1x1024 .f32) (y : S512x1024.Idx) :
    k0_pay1 (F := Ideal) x w b y = (∑ k : Fin 2048, x (ix2 (y 0) k) * w (ix2 (y 1) k)) + b (ix2 (0 : Fin 1) (y 1)) := by
  obtain ⟨p, q, rfl⟩ : ∃ (p : Fin 512) (q : Fin 1024), y = ix2 p q := ⟨y 0, y 1, eq_ix2 y⟩
  exact Cert.KernelIdeal.Body.pay_entry x w b p q

/-- WHAT POINT t WRITES BACK is block t of the flattened layer of the arrays the region found. -/
theorem flushed_eq (c : Dev nD) (t : Fin cfg0.N) :
    (dats m 0 c).flushed 3 t = ((cfg0.win 3).blk t).view.read (Elt Ideal) (full m c) := by
  show (cfg0.win 3).cut (grid0.coords t) ((dats m 0 c).after 3 t) = _
  rw [after0_3]
  unfold out0_3
  rw [View.canon_unit_zero hz]
  simp only [View.ld_unit_zero (S := S512x2048) hz, View.ld_unit_zero (S := S1024x2048) hz, View.ld_unit_zero (S := S1x1024) hz]
  obtain ⟨e0, e1, e2, e3, e4, e5, b0, b1⟩ := idx_facts t
  funext j
  have hj0 : (j 0).val < 512 := (j 0).isLt
  have hj1 : (j 1).val < 1024 := (j 1).isLt
  show k0_pay1 (F := Ideal) (iblk m c 0 t) (iblk m c 1 t) (iblk m c 2 t) ((cfg0.win 3).xinj (grid0.coords t) j)
    = Cert.Linear.rows (xarr m c) (warr m c) (barr m c) (((cfg0.win 3).blk t).view.emb j)
  refine (pay_at (iblk m c 0 t) (iblk m c 1 t) (iblk m c 2 t) _).trans ?_
  have r0 : ((((cfg0.win 3).blk t).view.emb j) 0).val = win0_3.index t (0 : Fin 2) * 512 + 1 * (j 0).val := rfl
  have r1 : ((((cfg0.win 3).blk t).view.emb j) 1).val = win0_3.index t (1 : Fin 2) * 1024 + 1 * (j 1).val := rfl
  have y0 : (((cfg0.win 3).xinj (grid0.coords t) j) 0).val = (j 0).val := rfl
  have y1 : (((cfg0.win 3).xinj (grid0.coords t) j) 1).val = (j 1).val := rfl
  have hr : ((((cfg0.win 3).blk t).view.emb j) 0).val = win0_0.index t (0 : Fin 2) * 512 + (j 0).val := by omega
  have ho : ((((cfg0.win 3).blk t).view.emb j) 1).val = win0_1.index t (0 : Fin 2) * 1024 + (j 1).val := by omega
  have hb : ((((cfg0.win 3).blk t).view.emb j) 1).val = win0_2.index t (1 : Fin 2) * 1024 + (j 1).val := by omega
  unfold Cert.Linear.rows
  refine congrArg₂ (· + ·) (Finset.sum_congr rfl fun k _ => ?_) ?_
  · exact congrArg₂ (· * ·)
      (xblk_at m c t ⟨(j 0).val, hj0⟩ k ((((cfg0.win 3).blk t).view.emb j) 0) hr e1)
      (wblk_at m c t ⟨(j 1).val, hj1⟩ k ((((cfg0.win 3).blk t).view.emb j) 1) ho e3)
  · exact bblk_at m c t ⟨(j 1).val, hj1⟩ ((((cfg0.win 3).blk t).view.emb j) 1) e4 hb

/-- An index of the result is in point t's block iff each coordinate is in the block's range on its axis. -/
theorem mem_blk (t : Fin cfg0.N) (i : S8192x6144.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v12).slice (win0_3.rect t)).set ↔ _
  rw [View.set_slice_whole, Rect.mem_set_unit]
  exact Iff.rfl

/-- The blocks tile the result: row r is in row block r / 512, column o in column block o / 1024. -/
theorem cover (i : S8192x6144.Idx) : ∃ t : Fin cfg0.N, (cfg0.win 3).flush t = true ∧ i ∈ ((cfg0.win 3).blk t).view.set := by
  have hi0 : (i 0).val < 8192 := (i 0).isLt
  have hi1 : (i 1).val < 6144 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the run: the flattened linear layer of the arrays the region found. -/
theorem final (c : Dev nD) : (dats m 0 c).arrAt 3 cfg0.N = full m c :=
  (dats m 0 c).arrAt_eq_of_cover 3 (full m c) (fun t _ => flushed_eq m c t) cover

/-- The flattened activations the region finds are the reshape of the activations as launched. -/
theorem xarr_eq (c : Dev nD) :
    xarr m c = shapeCast S8192x2048 (m ((c : Thread nD τ).loc main_arg0)) shapeCasts_S4x2048x2048_S8192x2048 := by
  show StableHlo.after hostOps0 (fun b => m (c, b)) (Proc.devRef .tc main_v10) = _
  after_results
  rfl

/-- The one-row bias the region finds is the reshape of the bias as launched. -/
theorem barr_eq (c : Dev nD) :
    barr m c = shapeCast S1x6144 (m ((c : Thread nD τ).loc main_arg2)) shapeCasts_S6144_S1x6144 := by
  show StableHlo.after hostOps0 (fun b => m (c, b)) (Proc.devRef .tc main_v11) = _
  after_results
  rfl

end Cert.KernelIdeal.Region

end
-- ==== Proof.Run.lean ====
/-
  The kernel program's run, with its result named.

  After the pallas_call the program reshapes the [8192, 6144] result to [4, 2048, 6144]. The result array ends as the
  flattened linear layer of the reshaped activations, the effective weight and the one-row bias; reshaped back to batch
  and position that is the batched layer of the activations, the effective weight and the bias as launched. The
  effective weight is the array the operations before the pallas_call leave in its buffer.
-/
import proofs.«159400_j74534862455241_1_alg».proof.Proof.Region

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- What the program returns: the batched layer of the activations and the bias as launched and the effective
    weight the region found. -/
abbrev result (c : Dev nD) : Vec Ideal S4x2048x6144 .f32 :=
  Cert.Linear.batched (m ((c : Thread nD τ).loc main_arg0)) (warr m c) (m ((c : Thread nD τ).loc main_arg2))

/-- The reshape after the region reads the result array, which the region left as the flattened layer. -/
theorem tail_eq (c : Dev nD) :
    Pipeline.afterTail₀ cfgs (dats m) 0 (V0 m) [hostOps1] c main_v13
      = shapeCast S4x2048x6144 (full m c) shapeCasts_S8192x6144_S4x2048x6144 := by
  unfold Pipeline.afterTail₀
  show StableHlo.after hostOps1 _ (Proc.devRef .tc main_v13) = _
  after_results
  have h := (Pipeline.withArrays_arr spec0 launch0.win.arr_inj c (V0 m c) (fun w => (dats m 0 c).arrAt w cfg0.N) 3).trans (final m c)
  exact congrArg (fun a => shapeCast S4x2048x6144 a shapeCasts_S8192x6144_S4x2048x6144) h

/-- … and the flattened layer of the reshaped arguments, reshaped back, is the batched layer. -/
theorem tail_result (c : Dev nD) :
    Pipeline.afterTail₀ cfgs (dats m) 0 (V0 m) [hostOps1] c main_v13 = result m c := by
  rw [tail_eq]
  unfold full
  rw [xarr_eq, barr_eq]
  exact Cert.Linear.reshape_rows _ _ _ _ _ _

/-- THE RUN: every weakly fair execution terminates with the result buffer at the batched layer and the arguments
    unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v13 (Pipeline.mem_restRefs_of main_v13 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Region

end
-- ==== Proof.Reference.lean ====
/-
  What the reference computes, as the batched linear layer.

  The reference adds the bias, broadcast over batch and position, to one contraction of the activations' last axis
  against the last axis of the effective weight (the given weight plus the low-rank update laid under a zero block).
  Read at (p, s, o) that is ∑ₖ x[p, s, k] · weight[o, k] + b[o]: the batched layer of the activations, the effective
  weight and the bias. The effective weight is left as the one term the program builds it by; nothing here looks
  inside it.
-/
import proofs.«159400_j74534862455241_1_alg».proof.Proof.Gen.ReferenceIdeal.Run
import proofs.«159400_j74534862455241_1_alg».proof.Proof.Gen.ReferenceIdeal.Read
import proofs.«159400_j74534862455241_1_alg».proof.Proof.Linear

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result is the batched layer of the activations, the effective weight and the bias: the
    contraction's left operand is read at (p, s, k), its right at (o, k), and the twice-broadcast bias at o. -/
theorem result_batched (x0 : (⟨S4x2048x2048, .f32⟩ : BufTy).Contents (Elt Ideal)) (x1 : (⟨S6144x2048, .f32⟩ : BufTy).Contents (Elt Ideal))
    (x2 : (⟨S6144, .f32⟩ : BufTy).Contents (Elt Ideal)) (x3 : (⟨S8x2048, .f32⟩ : BufTy).Contents (Elt Ideal))
    (x4 : (⟨S2048x8, .f32⟩ : BufTy).Contents (Elt Ideal)) (x5 : (⟨S8x2048, .f32⟩ : BufTy).Contents (Elt Ideal))
    (x6 : (⟨S2048x8, .f32⟩ : BufTy).Contents (Elt Ideal)) :
    val_main_v13 (F := Ideal) x0 x1 x2 x3 x4 x5 x6
      = Cert.Linear.batched x0 (val_main_v9 (F := Ideal) x1 x3 x4 x5 x6) x2 := by
  funext i
  rw [val_main_v13_apply, val_main_v10_apply, val_main_v12_apply, val_main_v11_apply]
  have el : ∀ k : Fin 2048, lidx_main_v10 i k = ix3 (i 0) (i 1) k := fun k => funext fun a => Fin.ext (by
    match a with
    | ⟨0, _⟩ => rfl
    | ⟨1, _⟩ => rfl
    | ⟨2, _⟩ => rfl)
  have er : ∀ k : Fin 2048, ridx_main_v10 i k = ix2 (i 2) k := fun k => funext fun a => Fin.ext (by
    match a with
    | ⟨0, _⟩ => rfl
    | ⟨1, _⟩ => rfl)
  have eb : idx_main_v11 (idx_main_v12 i) = ix1 (i 2) := funext fun a => Fin.ext (by
    match a with
    | ⟨0, _⟩ => rfl)
  simp only [el, er, eb]
  rfl

end Cert.ReferenceIdeal.RefValue

end
-- ==== Proof.Weight.lean ====
/-
  The effective weight is one term in both programs.

  Both programs build the effective weight by the same thirteen operations of the same arguments: the two rank-8
  products, each scaled by the constant one, stacked under a zero block of 2048 rows, and added to the given weight.
  The array the kernel program's pallas_call finds in its weight window is therefore, term for term, the stage the
  reference contracts the activations against; nothing of that term is evaluated.
-/
import proofs.«159400_j74534862455241_1_alg».proof.Proof.Region
import proofs.«159400_j74534862455241_1_alg».proof.Proof.Gen.ReferenceIdeal.Read

noncomputable section

namespace Cert.KernelIdeal.Region

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ)

/-- The weight array the region finds is the reference's effective-weight stage of the arguments as launched. -/
theorem warr_eq (c : Dev nD) :
    warr m c = Cert.ReferenceIdeal.Read.val_main_v9 (F := Ideal) (m ((c : Thread nD τ).loc main_arg1))
      (m ((c : Thread nD τ).loc main_arg3)) (m ((c : Thread nD τ).loc main_arg4))
      (m ((c : Thread nD τ).loc main_arg5)) (m ((c : Thread nD τ).loc main_arg6)) := by
  show StableHlo.after hostOps0 (fun b => m (c, b)) (Proc.devRef .tc main_v9) = _
  after_results
  rfl

end Cert.KernelIdeal.Region

end
-- ==== Proof.lean ====
/-
  A dense linear layer with a low-rank update folded into its weight, against its jnp reference.

  Both programs first form the effective weight: the given [6144, 2048] weight plus a [6144, 2048] array whose first
  2048 rows are zero and whose other rows are the two rank-8 products B1·A1 and B2·A2, each times the constant one. The
  kernel program then flattens the [4, 2048, 2048] activations to [8192, 2048] rows, runs one pallas_call over a 16 × 6
  grid whose point (i, j) writes the [512, 1024] block of  x2d · weightᵀ + b  (one contraction of all 2048 features on
  the matrix unit, operands narrowed to bf16, which at the exact values changes nothing), and reshapes the [8192, 6144]
  result to [4, 2048, 6144]. The reference contracts the activations' last axis against the weight's last axis and adds
  the broadcast bias. At the exact values both results are, at (p, s, o),  ∑ₖ x[p, s, k] · weight[o, k] + b[o]  with the
  SAME effective weight term, the same products summed in the same order: no property of the inputs is used, and the
  precondition is never opened.

  The kernel's result array is read off the generated frame run (Proof/Region.lean: what each point writes back, the
  cover, the array; Proof/Body.lean: the stored block at an entry), carried through the final reshape (Proof/Run.lean),
  and joined to the reference's generated run (Proof/Reference.lean) by the reshape law of Proof/Linear.lean and the
  agreement of the two weight terms (Proof/Weight.lean). The three frames are the generated ones; the idealization
  rewrote nothing, so there is nothing to preserve.
-/
import proofs.«159400_j74534862455241_1_alg».proof.Defs
import proofs.«159400_j74534862455241_1_alg».proof.Proof.Gen.Kernel
import proofs.«159400_j74534862455241_1_alg».proof.Proof.Gen.Kernel.Skeleton
import proofs.«159400_j74534862455241_1_alg».proof.Proof.Gen.Kernel.Launch
import proofs.«159400_j74534862455241_1_alg».proof.Proof.Gen.Kernel.Points
import proofs.«159400_j74534862455241_1_alg».proof.Proof.Gen.Kernel.Frame
import proofs.«159400_j74534862455241_1_alg».proof.Proof.Gen.KernelIdeal
import proofs.«159400_j74534862455241_1_alg».proof.Proof.Gen.KernelIdeal.Skeleton
import proofs.«159400_j74534862455241_1_alg».proof.Proof.Gen.KernelIdeal.Launch
import proofs.«159400_j74534862455241_1_alg».proof.Proof.Gen.KernelIdeal.Points
import proofs.«159400_j74534862455241_1_alg».proof.Proof.Gen.KernelIdeal.Frame
import proofs.«159400_j74534862455241_1_alg».proof.Proof.Gen.ReferenceIdeal
import proofs.«159400_j74534862455241_1_alg».proof.Proof.Gen.ReferenceIdeal.Run
import proofs.«159400_j74534862455241_1_alg».proof.Proof.Gen.ReferenceIdeal.Read
import proofs.«159400_j74534862455241_1_alg».proof.Proof.Gen.Pre_finite_inputs
import proofs.«159400_j74534862455241_1_alg».proof.Proof.Run
import proofs.«159400_j74534862455241_1_alg».proof.Proof.Reference
import proofs.«159400_j74534862455241_1_alg».proof.Proof.Weight
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the kernel program at the exact values. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the batched layer of the activations, the effective
    weight and the bias: the kernel program by its run, the reference by its run read as the batched layer, the two
    weight terms being one. -/
theorem algebraic : Cert.algebraic_KernelIdeal_ReferenceIdeal := by
  intro m ρ m' ρ' _ hagree
  refine ⟨fun c => Cert.KernelIdeal.Region.result m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  refine (Cert.ReferenceIdeal.Read.val_main_v13_eq _ _ _ _ _ _ _).trans ?_
  refine (Cert.ReferenceIdeal.RefValue.result_batched _ _ _ _ _ _ _).trans ?_
  rw [← Cert.KernelIdeal.Region.warr_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
